-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S1x1 : Shape := ⟨2, ![1, 1]⟩
abbrev S262144x4 : Shape := ⟨2, ![262144, 4]⟩
abbrev S262144x3 : Shape := ⟨2, ![262144, 3]⟩
abbrev S262144 : Shape := ⟨1, ![262144]⟩
abbrev S262144x1 : Shape := ⟨2, ![262144, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S262144x4, .f32⟩
  | .local _ .vmem, ⟨1, _⟩ => ⟨S262144x4, .f32⟩
  | .local _ .vmem, ⟨2, _⟩ => ⟨S262144x4, .f32⟩
  | .local _ .vmem, ⟨3, _⟩ => ⟨S262144x4, .f32⟩
  | .local _ .vmem, ⟨4, _⟩ => ⟨S1x1, .f32⟩
  | .local _ .vmem, ⟨5, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S262144x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S262144x4_S262144x4_0_0 : ∀ a, (![0, 0] : Fin 2 → Nat) a + S262144x4.size a ≤ S262144x4.size a
  h_S262144x4 : 0 < S262144x4.numel
  slices_S262144x4_o0_1_S262144x3 : S262144x4.Slices ![0, 1] S262144x3
  reduces_S262144x3_S262144 : S262144x3.Reduces [1] S262144
  shapeCasts_S262144_S262144x1 : S262144.ShapeCasts S262144x1
  reduces_S262144x1_S1 : S262144x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x4.size a ≤ S8388608x4.size a
  hwx0_0 : ∀ i : grid0.Coords, EltTy.bits .f32 = 32 ∨ (Rect.block (s := S8388608x4) S262144x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x4.size a ≤ S8388608x4.size a
  hwx0_1 : ∀ i : grid0.Coords, EltTy.bits .f32 = 32 ∨ (Rect.block (s := S8388608x4) S262144x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S262144x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S4 : Shape := ⟨1, ![4]⟩
abbrev S1x4 : Shape := ⟨2, ![1, 4]⟩
abbrev S8388608x3 : Shape := ⟨2, ![8388608, 3]⟩
abbrev S_ : Shape := ⟨0, ![]⟩
abbrev S8388608 : Shape := ⟨1, ![8388608]⟩

abbrev nBuf : Space → Nat
  | .hbm => 18
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S4, .f32⟩
  | .hbm, ⟨3, _⟩ => ⟨S1x4, .f32⟩
  | .hbm, ⟨4, _⟩ => ⟨S8388608x4, .f32⟩
  | .hbm, ⟨5, _⟩ => ⟨S8388608x4, .f32⟩
  | .hbm, ⟨6, _⟩ => ⟨S8388608x4, .f32⟩
  | .hbm, ⟨7, _⟩ => ⟨S8388608x3, .f32⟩
  | .hbm, ⟨8, _⟩ => ⟨S8388608x3, .f32⟩
  | .hbm, ⟨9, _⟩ => ⟨S_, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S8388608x4_0_1 : S1x4.BroadcastsInDim S8388608x4 (![0, 1] : Fin 2 → Fin S8388608x4.rank)
  slices_S8388608x4_S8388608x3_0_1 : S8388608x4.Slices ![0, 1] S8388608x3
  reducesTo_S8388608x3_S8388608_d1 : S8388608x3.ReducesTo [1] S8388608
  h_S_ : 0 < S_.numel
  bcast_S_S8388608 : S_.BroadcastsInDim S8388608 (![] : Fin 0 → Fin S8388608.rank)
  reducesTo_S8388608_S_d0 : S8388608.ReducesTo [0] S_

variable [Facts₀]

class Facts : Prop extends Facts₀ where

variable [Facts]
-- ==== Proof.RefRun.lean ====
/-
  The reference, run. Its @main is a straight line of sixteen host operations: the conjugation vector
  `[1, -1, -1, -1]` broadcast over the rows, `true · conj`, `pred · (true · conj)`, the three imaginary
  columns sliced out, their absolute values, the row sums, the doubling, the sum over all rows, and the
  division by the number of rows. Every weakly fair execution terminates with the result buffer at that
  composed term of the two arguments (`refTerm`) and the arguments unchanged.
-/
import proofs.«168216_j74294344286531_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The conjugation vector laid over every row: `conj[j]` at `(b, j)`. -/
def conjRows : FVec F S8388608x4 .f32 :=
  broadcastInDim S8388608x4 ![0, 1] bcast_S1x4_S8388608x4_0_1
    (broadcastInDim S1x4 ![1] bcast_S4_S1x4_1 (fun i => FloatOps.ofBits .f32 (lit0 (S4.rowMajor i))))

/-- Per row, twice the sum of `|pred · (true · conj)|` over the imaginary columns. -/
def perSample (p t : FVec F S8388608x4 .f32) : FVec F S8388608 .f32 :=
  mulf (broadcastInDim S8388608 ![] bcast_S_S8388608 (constant S_ .f32 0x40000000#32))
    (Host.reduceAdd (Host.absf (extractStridedSlice S8388608x3 ![0, 1] (mulf p (mulf t conjRows)) slices_S8388608x4_S8388608x3_0_1))
      (constant S_ .f32 0x00000000#32) reducesTo_S8388608x3_S8388608_d1 h_S_)

/-- The reference's result as one term of its arguments: the mean of `perSample` over the rows. -/
def refTerm (p t : FVec F S8388608x4 .f32) : FVec F S_ .f32 :=
  Host.divf (Host.reduceAdd (perSample p t) (constant S_ .f32 0x00000000#32) reducesTo_S8388608_S_d0 h_S_)
    (constant S_ .f32 0x4B000000#32)

/-- @main's sixteen operations, in order. -/
abbrev ops : List (HloOp τ sig (Elt F)) :=
  [ nullary main_cst (fun i => FloatOps.ofBits .f32 (lit0 (S4.rowMajor i))),
    unary main_cst main_v0 (broadcastInDim S1x4 ![1] bcast_S4_S1x4_1 : (⟨S4, .f32⟩ : BufTy).Contents (Elt F) → (⟨S1x4, .f32⟩ : BufTy).Contents (Elt F)),
    unary main_v0 main_v1 (broadcastInDim S8388608x4 ![0, 1] bcast_S1x4_S8388608x4_0_1 : (⟨S1x4, .f32⟩ : BufTy).Contents (Elt F) → (⟨S8388608x4, .f32⟩ : BufTy).Contents (Elt F)),
    binary main_arg1 main_v1 main_v2 (mulf : (⟨S8388608x4, .f32⟩ : BufTy).Contents (Elt F) → (⟨S8388608x4, .f32⟩ : BufTy).Contents (Elt F) → (⟨S8388608x4, .f32⟩ : BufTy).Contents (Elt F)),
    binary main_arg0 main_v2 main_v3 (mulf : (⟨S8388608x4, .f32⟩ : BufTy).Contents (Elt F) → (⟨S8388608x4, .f32⟩ : BufTy).Contents (Elt F) → (⟨S8388608x4, .f32⟩ : BufTy).Contents (Elt F)),
    unary main_v3 main_v4 ((extractStridedSlice S8388608x3 ![0, 1] · slices_S8388608x4_S8388608x3_0_1) : (⟨S8388608x4, .f32⟩ : BufTy).Contents (Elt F) → (⟨S8388608x3, .f32⟩ : BufTy).Contents (Elt F)),
    unary main_v4 main_v5 (Host.absf : (⟨S8388608x3, .f32⟩ : BufTy).Contents (Elt F) → (⟨S8388608x3, .f32⟩ : BufTy).Contents (Elt F)),
    nullary main_cst_0 (constant S_ .f32 0x00000000#32),
    binary main_v5 main_cst_0 main_v6 ((fun x v => Host.reduceAdd x v reducesTo_S8388608x3_S8388608_d1 h_S_) : (⟨S8388608x3, .f32⟩ : BufTy).Contents (Elt F) → (⟨S_, .f32⟩ : BufTy).Contents (Elt F) → (⟨S8388608, .f32⟩ : BufTy).Contents (Elt F)),
    nullary main_cst_1 (constant S_ .f32 0x40000000#32),
    unary main_cst_1 main_v7 (broadcastInDim S8388608 ![] bcast_S_S8388608 : (⟨S_, .f32⟩ : BufTy).Contents (Elt F) → (⟨S8388608, .f32⟩ : BufTy).Contents (Elt F)),
    binary main_v7 main_v6 main_v8 (mulf : (⟨S8388608, .f32⟩ : BufTy).Contents (Elt F) → (⟨S8388608, .f32⟩ : BufTy).Contents (Elt F) → (⟨S8388608, .f32⟩ : BufTy).Contents (Elt F)),
    nullary main_cst_2 (constant S_ .f32 0x00000000#32),
    binary main_v8 main_cst_2 main_v9 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_3 (constant S_ .f32 0x4B000000#32),
    binary main_v9 main_cst_3 main_v10 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., binary_bufs_sub .., unary_bufs_sub ..,
    unary_bufs_sub .., nullary_bufs_sub .., binary_bufs_sub .., nullary_bufs_sub .., unary_bufs_sub .., binary_bufs_sub ..,
    nullary_bufs_sub .., binary_bufs_sub .., nullary_bufs_sub .., binary_bufs_sub ..⟩

/-- On every device, for any float values, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.KernelPieces.lean ====
/-
  What one grid point of the kernel leaves behind, read as values.

  The body keeps a running total in a one-element scratch. At every point it loads the two input tiles
  `x0`, `x1` and the scratch `acc`, and stores `step x0 x1 acc` back into the scratch, where `step` is
  the body's arithmetic (`k0_pay2`: the scratch plus twice the tile's sum of `|x0 · x1|` over the imaginary
  columns). At the first point the scratch is first reset to zero (`k0_pay1`), so the point leaves
  `step x0 x1 0`; at the last point the new total is also copied to the output's staging buffer.
  Each lemma reads the stores the run found back as that one value.
-/
import proofs.«168216_j74294344286531_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First point: the scratch is reset, read back, and left at `step x0 x1 0`. -/
theorem scratch_A (c : Dev nD) (i : grid0.Coords) (a1 : Memref sig .tc .vmem S262144x4 .f32) (h1 : a1.IsWhole)
    (a2 : Memref sig .tc .vmem S262144x4 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S262144x4 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S262144x4) hz]

/-- A middle point: the scratch, found at `acc`, is left at `step x0 x1 acc`. -/
theorem scratch_B (c : Dev nD) (i : grid0.Coords) (a1 : Memref sig .tc .vmem S262144x4 .f32) (h1 : a1.IsWhole)
    (a2 : Memref sig .tc .vmem S262144x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S262144x4 .f32) (acc : Vec F S1x1 .f32) :
    sout0_B_0 c i a1 h1 a2 h2 a3 h3 a4 h4 hc0 hc1 x0 x1 acc = k0_pay2 x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  rw [View.canon_unit_zero hz]
  simp only [View.readAt_eq_ld, h1.read_unread, h2.read_unread, h4.read_unread, View.ld_unit_zero (S := S262144x4) hz,
    View.ld_unit_zero (S := S1x1) hz]

/-- The last point leaves the scratch at `step x0 x1 acc` too, -/
theorem scratch_C (c : Dev nD) (i : grid0.Coords) (a1 : Memref sig .tc .vmem S262144x4 .f32) (h1 : a1.IsWhole)
    (a2 : Memref sig .tc .vmem S262144x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S262144x4 .f32) (acc : Vec F S1x1 .f32) :
    sout0_C_0 c i a1 h1 a2 h2 a3 h3 a4 h4 hc0 hc1 x0 x1 acc = k0_pay2 x0 x1 acc := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero hz]
  simp only [View.readAt_eq_ld, h1.read_unread, h2.read_unread, h4.read_unread, View.ld_unit_zero (S := S262144x4) hz,
    View.ld_unit_zero (S := S1x1) hz]

/-- and copies that new total, read back from the scratch, into the output's staging buffer. -/
theorem out_C (c : Dev nD) (i : grid0.Coords) (a1 : Memref sig .tc .vmem S262144x4 .f32) (h1 : a1.IsWhole)
    (a2 : Memref sig .tc .vmem S262144x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S262144x4 .f32) (acc : Vec F S1x1 .f32) :
    out0_C_2 c i a1 h1 a2 h2 a3 h3 a4 h4 hc0 hc1 x0 x1 acc = k0_pay2 x0 x1 acc := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S262144x4) hz,
    View.ld_unit_zero (S := S1x1) hz]

end Cert.KernelIdeal.Acc

end
-- ==== Proof.KernelChain.lean ====
/-
  The running total across the grid.

  After point `n` the scratch holds `chain n`: the body's `step` applied to the tiles of points
  `0, 1, …, n` in order, starting from the zero the first point stores. This is the recursion the
  generated proof data (`outsAt0`) follows case by case, so the two agree at every point (induction on
  the point), and at the last point the output's staging buffer holds the same total.
-/
import proofs.«168216_j74294344286531_1_alg».proof.Proof.KernelPieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The tile of `pred` (window 0) and of `true` (window 1) that point `t` reads. -/
abbrev predTile (c : Dev nD) (t : Fin cfg0.N) : Vec F S262144x4 .f32 := iblk m c 0 t
abbrev trueTile (c : Dev nD) (t : Fin cfg0.N) : Vec F S262144x4 .f32 := iblk m c 1 t

/-- The running total after point `n`. -/
def chain (c : Dev nD) : (n : ℕ) → n < cfg0.N → Vec F S1x1 .f32
  | 0, h => k0_pay2 (predTile m c ⟨0, h⟩) (trueTile m c ⟨0, h⟩) (k0_pay1 (F := F))
  | n + 1, h => k0_pay2 (predTile m c ⟨n + 1, h⟩) (trueTile m c ⟨n + 1, h⟩) (chain c n (Nat.lt_of_succ_lt h))

/-- The scratch after point `n` is the running total. -/
theorem scratch_eq (c : Dev nD) : ∀ (n : ℕ) (h : n < cfg0.N), (outsAt0 m c n h).2 = chain m c n h
  | 0, h => by
    rw [outsAt0_A m c ⟨0, h⟩ rfl (by show ¬(0 % 32 = 31); decide)]
    dsimp only
    exact scratch_A ..
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [scratch_C]
      show k0_pay2 _ _ (outsAt0 m c n _).2 = k0_pay2 _ _ (chain m c n _)
      rw [scratch_eq c n]
    · rw [outsAt0_B m c ⟨n + 1, h⟩ h0 h1]
      dsimp only
      rw [scratch_B]
      show k0_pay2 _ _ (outsAt0 m c n _).2 = k0_pay2 _ _ (chain m c n _)
      rw [scratch_eq c n]

/-- At the last point the output's staging buffer holds the running total too. -/
theorem out_eq (c : Dev nD) (n : ℕ) (h : n + 1 < cfg0.N) (h1 : (n + 1) % 32 = 31) :
    (outsAt0 m c (n + 1) h).1 = chain m c (n + 1) h := by
  have hN : cfg0.N = 32 := N_0
  have h0 : ¬(⟨n + 1, h⟩ : Fin cfg0.N).val % 32 = 0 := by dsimp only; omega
  rw [outsAt0_C m c ⟨n + 1, h⟩ h0 h1]
  dsimp only
  rw [out_C]
  show k0_pay2 _ _ (outsAt0 m c n _).2 = k0_pay2 _ _ (chain m c n _)
  rw [scratch_eq m c n]

end Cert.KernelIdeal.Acc

end
-- ==== Proof.KernelValue.lean ====
/-
  The kernel's run, read as a value.

  The output window's one block is the whole `1 × 1` result array; it is written back once, after the
  last point, when its staging buffer holds the running total `chain 31`. So the result array ends at that
  total (`final`), and the two host lines after the region — a reshape to a scalar and a division by the
  number of rows — turn it into the program's result (`tailOf`). The arguments are inputs of the region and
  end as they began.
-/
import proofs.«168216_j74294344286531_1_alg».proof.Proof.KernelChain
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The grid's last point. -/
abbrev tLast : Fin cfg0.N := ⟨31, by rw [show cfg0.N = 32 from N_0]; decide⟩

/-- The running total after the last point, as contents of the result array. -/
abbrev total (c : Dev nD) : Buf (Elt F) ((c : Thread nD τ).loc main_v0) := chain m c 31 tLast.isLt

/-- The one write-back, after the last point, writes the total: block (0, 0) of the `1 × 1` array is the array. -/
theorem flushed_eq (c : Dev nD) (t : Fin cfg0.N) (hf : (cfg0.win 2).flush t = true) :
    (dats m 0 c).flushed 2 t = ((cfg0.win 2).blk t).view.read (Elt F) (total m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2]
  rw [show (outsAt0 m c tLast.val tLast.isLt).1 = chain m c 31 tLast.isLt from out_eq m c 30 tLast.isLt (by decide)]
  have hz' : (fun a => win0_2.index tLast a * main_v0.ty.shape.size a) = fun _ => 0 := funext fun a => by fin_cases a <;> decide
  exact (Memref.read_access_unit_zero (Elt F) main_v0 hz' (fun a => by rw [congrFun hz' a]; simp) (total m c)).symm

/-- So the result array ends holding the total: the last point's block covers it. -/
theorem final (c : Dev nD) : (dats m 0 c).arrAt 2 cfg0.N = total m c :=
  (dats m 0 c).arrAt_eq_of_cover 2 (total m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host lines after the region: the `1 × 1` array as a scalar, over the number of rows. -/
def tailOf (v : FVec F S1x1 .f32) : FVec F S_ .f32 :=
  Host.divf (shapeCast S_ v shapeCasts_S1x1_S_) (constant S_ .f32 0x4B000000#32)

/-- What the program's result buffer holds after those lines. -/
theorem tail_eq (c : Dev nD) :
    Pipeline.afterTail₀ cfgs (dats m) 0 (V0 m) [hostOps1] c main_v2 = tailOf (total m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = total m c :=
    (Pipeline.withArrays_arr spec0 launch0.win.arr_inj c _ _ 2).trans (final m c)
  unfold tailOf
  refine congrArg (fun v => Host.divf v (constant S_ .f32 0x4B000000#32)) (funext fun i => ?_)
  show shapeCast S_ (Pipeline.withArrays (cfgs 0).spec c (V0 m c) (fun w => (dats m 0 c).arrAt w (cfgs 0).N)
    (Proc.devRef .tc main_v0)) shapeCasts_S1x1_S_ i = _
  rw [e]

/-- The run: the result at `tailOf` of the total, the arguments unchanged. -/
theorem run : θ_run defs (onTc (τ := τ) (main (F := F))) ⟨m, fun _ => 0, ρ⟩ fun r => ∀ c : Dev nD,
      r.2.mem ((c : Thread nD τ).loc main_v2) = tailOf (total m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.Algebra.lean ====
/-
  The arithmetic of the loss on the extended reals, with no program in sight.

  Both programs compute a sum of absolute values `|p · t|` over rows and over the three imaginary
  components, doubled, the kernel doubling each tile's partial sum and the reference doubling each row's.
  Three facts join them:
    * a factor distributes over a finite sum of NON-NEGATIVE extended reals (no finiteness needed:
      `c · (a + b) = c · a + c · b` holds on the extended reals as soon as `0 ≤ a` and `0 ≤ b`);
    * a sum over `A · B` rows is the sum over `A` tiles of the sums over the `B` rows of each tile
      (addition of extended reals is commutative and associative);
    * the conjugation's factor `-1` disappears under the absolute value: `|p · (t · (-1))| = |p · t|`.
-/
import Mathlib.Data.EReal.Operations
import Mathlib.Algebra.BigOperators.Fin
import Mathlib.Algebra.Order.BigOperators.Group.Finset
import Mathlib.Logic.Equiv.Fin.Basic

namespace Qme

open Finset

/-- The absolute value as both programs spell it at the exact values: the larger of `x` and `-x`. -/
noncomputable def eabs (x : EReal) : EReal := max x (-x)

theorem eabs_nonneg (x : EReal) : 0 ≤ eabs x := by
  unfold eabs
  rcases le_total 0 x with h | h
  · exact le_max_of_le_left h
  · exact le_max_of_le_right (EReal.neg_nonneg.mpr h)

theorem eabs_neg (x : EReal) : eabs (-x) = eabs x := by
  unfold eabs
  rw [neg_neg, max_comm]

/-- The conjugation's `-1` on an imaginary component is invisible under the absolute value. -/
theorem eabs_mul_conj (p t : EReal) : eabs (p * (t * (-1))) = eabs (p * t) := by
  rw [mul_neg, mul_one, mul_neg, eabs_neg]

/-- A factor distributes over a finite sum of non-negative extended reals. -/
theorem mul_sum_of_nonneg {ι : Type*} (c : EReal) (s : Finset ι) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- Row `r` of tile `i`, among `A · B` rows cut into `A` tiles of `B`. -/
def rowOf {A B : ℕ} (i : Fin A) (r : Fin B) : Fin (A * B) := finProdFinEquiv (i, r)

theorem rowOf_val {A B : ℕ} (i : Fin A) (r : Fin B) : (rowOf i r).val = r.val + B * i.val := rfl

/-- The doubled tile sums, added over the tiles, are the doubled rows added over all rows: the factor enters each
    tile's sum (its terms are non-negative) and the rows of the tiles are all the rows. -/
theorem sum_tiles (c : EReal) (A B : ℕ) (g : Fin (A * B) → EReal) (hg : ∀ b, 0 ≤ g b) :
    ∑ i : Fin A, c * ∑ r : Fin B, g (rowOf i r) = ∑ b : Fin (A * B), c * g b := by
  have h1 : ∀ i : Fin A, c * ∑ r : Fin B, g (rowOf i r) = ∑ r : Fin B, c * g (rowOf i r) :=
    fun i => mul_sum_of_nonneg c _ _ fun r _ => hg _
  simp only [h1]
  rw [← Fintype.sum_prod_type (f := fun x : Fin A × Fin B => c * g (rowOf x.1 x.2))]
  exact Fintype.sum_equiv finProdFinEquiv _ _ fun _ => rfl

end Qme
-- ==== Proof.KernelStep.lean ====
/-
  One grid point's arithmetic, read at the exact values.

  `step x0 x1 acc` (the body's stored value, `k0_pay2`) is the one-element vector holding
  `acc + 2 · Σ_r Σ_j |x0[r, j] · x1[r, j]|`, the sums over the tile's rows `r` and the imaginary columns
  `j = 1, 2, 3`: the lane reduction gives each row's sum, the reduction over the rows the tile's, the shape
  casts move nothing, and the reductions' zero accumulators add nothing. The zero the first point stores
  (`k0_pay1`) is the extended real `0`.
-/
import proofs.«168216_j74294344286531_1_alg».proof.Proof.Gen.KernelIdeal.Skeleton
import proofs.«168216_j74294344286531_1_alg».proof.Proof.Algebra
import Idealize.ShloMosaic.Lib.ValueIdx
import Idealize.ShloMosaic.Lib.Pipeline.Value
import Idealize.ShloMosaic.PureOps.Ideal.Laws

noncomputable section

namespace Cert.KernelIdeal.Acc

open Cert.KernelIdeal Cert.KernelIdeal.Gen Idealize.ShloMosaic Idealize.ShloMosaic.ValueIdx

/-- The doubling factor, as the word the body carries. -/
abbrev two : EReal := Ideal.ofBits .f32 0x40000000#32

/-- Imaginary column `j + 1` of row `r` of a tile. -/
abbrev imagT (r : Fin 262144) (j : Fin 3) : S262144x4.Idx := ix2 r ⟨j.val + 1, by omega⟩

/-- A tile's sum of `|x0 · x1|` over its rows and the imaginary columns. -/
def tileTerm (x0 x1 : FVec Ideal S262144x4 .f32) : EReal :=
  ∑ r : Fin 262144, ∑ j : Fin 3, Qme.eabs (x0 (imagT r j) * x1 (imagT r j))

/-- The absolute value of a vector, at an index, is the larger of the entry and its negation. -/
theorem absf_eq_eabs {s : Shape} {φ : FTy} (v : FVec Ideal s φ) (i : s.Idx) : absf v i = Qme.eabs (v i) := rfl

/-- The one index of a one-element vector. -/
theorem idx_eq (i : S1x1.Idx) : i = ix2 0 0 :=
  funext fun a => match a with
    | ⟨0, _⟩ => Fin.ext (by have := idx2_lt0 i; show (i 0).val = 0; omega)
    | ⟨1, _⟩ => Fin.ext (by have := idx2_lt1 i; show (i 1).val = 0; omega)

/-- The body's stored value: the scratch plus twice the tile's term. -/
theorem step_apply (x0 x1 : FVec Ideal S262144x4 .f32) (acc : FVec Ideal S1x1 .f32) :
    k0_pay2 (F := Ideal) x0 x1 acc (ix2 0 0) = acc (ix2 0 0) + two * tileTerm x0 x1 := by
  unfold k0_pay2
  dsimp only
  rw [shapeCast_self, addf_apply, mulf_apply, broadcast_apply]
  refine congrArg (fun z => acc (ix2 0 0) + two * z) ?_
  refine (shapeCast_apply _ _ (ix2 0 0) (ix1 0) (by rw [Shape.rowMajor_val_two, Shape.rowMajor_val_one]; rfl)).trans ?_
  refine (Ideal.multiReduction_add_single _ _ _ _ _ (ix1 0)).trans ?_
  unfold tileTerm
  refine Finset.sum_congr rfl fun r _ => ?_
  refine (shapeCast_apply _ _ _ (ix1 r) (by rw [Shape.rowMajor_val_two, Shape.rowMajor_val_one]; show r.val = r.val * 1 + 0; omega)).trans ?_
  refine (Ideal.multiReduction_add_single _ _ _ _ _ (ix1 r)).trans ?_
  refine Finset.sum_congr rfl fun j _ => ?_
  rw [absf_eq_eabs, mulf_apply]
  refine congrArg Qme.eabs (congrArg₂ (· * ·) ?_ ?_)
  · exact extractStridedSlice_apply _ x0 _ _ (imagT r j) (by
      intro a; match a with
      | ⟨0, _⟩ => exact (Nat.zero_add _).symm
      | ⟨1, _⟩ => exact Nat.add_comm _ _)
  · exact extractStridedSlice_apply _ x1 _ _ (imagT r j) (by
      intro a; match a with
      | ⟨0, _⟩ => exact (Nat.zero_add _).symm
      | ⟨1, _⟩ => exact Nat.add_comm _ _)

/-- The zero the first point stores. -/
theorem zero_apply : (k0_pay1 (F := Ideal)) (ix2 0 0) = 0 := by
  unfold k0_pay1
  show shapeCast S1x1 (broadcast S1x1 (Scalar.ofBits (F := Ideal) .f32 0x00000000#32)) shapeCasts_S1x1_S1x1 (ix2 0 0) = 0
  rw [shapeCast_self, broadcast_apply]
  exact Ideal.ofBits_zero_f32

end Cert.KernelIdeal.Acc

end
-- ==== Proof.RefValue.lean ====
/-
  The reference's result as a formula on the extended reals.

  Read at the exact values, row `b` of `per_sample` is `2 · (0 + Σ_j |pred[b,j] · (true[b,j] · conj[j])|)` over the
  imaginary columns `j = 1, 2, 3`, where `conj[j] = -1`; under the absolute value the `-1` disappears. The mean
  is `(0 + Σ_b per_sample[b]) / 8388608`. So the reference's result is `(Σ_b 2 · rowTerm b) / 8388608` with
  `rowTerm b = Σ_j |pred[b,j] · true[b,j]|`.
-/
import proofs.«168216_j74294344286531_1_alg».proof.Proof.RefRun
import proofs.«168216_j74294344286531_1_alg».proof.Proof.Algebra
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

/-- Imaginary column `j + 1` of row `b`. -/
abbrev imag (b : Fin 8388608) (j : Fin 3) : S8388608x4.Idx := ix2 b ⟨j.val + 1, by omega⟩

/-- The doubling factor and the number of rows, as the words both programs carry. -/
abbrev two : EReal := Ideal.ofBits .f32 0x40000000#32
abbrev nrows : EReal := Ideal.ofBits .f32 0x4B000000#32

/-- One row's sum of `|pred · true|` over the three imaginary columns. -/
def rowTerm (p t : FVec Ideal S8388608x4 .f32) (b : Fin 8388608) : EReal :=
  ∑ j : Fin 3, Qme.eabs (p (imag b j) * t (imag b j))

theorem negOne : Ideal.ofBits .f32 0xBF800000#32 = -1 := IdealRules.sign_bit.ideal_negOnePat .f32

/-- The conjugation vector holds `-1` on every imaginary column. -/
theorem conjRows_imag (b : Fin 8388608) (j : Fin 3) : conjRows (F := Ideal) (imag b j) = -1 := by
  unfold conjRows
  rw [broadcastInDim_apply _ _ _ (imag b j) (ix2 0 ⟨j.val + 1, by omega⟩) (by
    intro a; match a with
    | ⟨0, _⟩ => rfl
    | ⟨1, _⟩ => rfl)]
  rw [broadcastInDim_apply _ _ _ (ix2 (0 : Fin 1) (⟨j.val + 1, by omega⟩ : Fin 4)) (ix1 ⟨j.val + 1, by omega⟩) (by
    intro a; match a with
    | ⟨0, _⟩ => rfl)]
  show Ideal.ofBits .f32 (lit0 (S4.rowMajor (ix1 ⟨j.val + 1, _⟩))) = -1
  fin_cases j <;> exact negOne

/-- Row `b` of `per_sample`: twice the row's term (the sum's initial zero gone, the conjugation gone). -/
theorem perSample_apply (p t : FVec Ideal S8388608x4 .f32) (b : Fin 8388608) :
    perSample (F := Ideal) p t (ix1 b) = two * rowTerm p t b := by
  unfold perSample
  rw [mulf_apply]
  refine congrArg (two * ·) ?_
  show Ideal.hostReduceAdd reducesTo_S8388608x3_S8388608_d1 _ (Ideal.ofBits .f32 0x00000000#32) (ix1 b) = _
  rw [Ideal.hostReduceAdd_single reducesTo_S8388608x3_S8388608_d1 (by decide : S8388608x3.Reduces [1] S8388608),
    Ideal.ofBits_zero_f32, zero_add]
  unfold rowTerm
  show ∑ j : Fin 3, _ = _
  refine Finset.sum_congr rfl fun j _ => ?_
  show Qme.eabs (extractStridedSlice S8388608x3 ![0, 1] (mulf p (mulf t conjRows)) slices_S8388608x4_S8388608x3_0_1 _) = _
  rw [extractStridedSlice_apply _ _ _ _ (imag b j) (by
    intro a; match a with
    | ⟨0, _⟩ => exact (Nat.zero_add _).symm
    | ⟨1, _⟩ => exact Nat.add_comm _ _)]
  rw [mulf_apply, mulf_apply, conjRows_imag, Qme.eabs_mul_conj]

/-- An index of the rank-one row shape is its one coordinate. -/
def rowIdx : S8388608.Idx ≃ Fin 8388608 where
  toFun i := i 0
  invFun b := ix1 b
  left_inv i := (eq_ix1 i).symm
  right_inv _ := rfl

/-- The reference's result: the rows' doubled terms, added up, over the number of rows. -/
theorem refTerm_eq (p t : FVec Ideal S8388608x4 .f32) :
    refTerm (F := Ideal) p t = fun _ => Ideal.div (∑ b : Fin 8388608, two * rowTerm p t b) nrows := by
  funext i
  unfold refTerm
  show Ideal.div (Ideal.hostReduceAdd reducesTo_S8388608_S_d0 (perSample p t) (Ideal.ofBits .f32 0x00000000#32) i) nrows = _
  rw [Ideal.hostReduceAdd_total reducesTo_S8388608_S_d0 (fun b => b.elim0), Ideal.ofBits_zero_f32, zero_add]
  refine congrArg (Ideal.div · nrows) ?_
  refine (Fintype.sum_equiv rowIdx _ _ fun k => ?_)
  rw [← perSample_apply]
  exact congrArg _ (eq_ix1 k)

end Cert.ReferenceIdeal.RefValue

end
-- ==== Proof.Bridge.lean ====
/-
  The kernel's total is the reference's sum.

  Point `i` adds `2 · Σ_r Σ_j |pred[r', j] · true[r', j]|` to the scratch, where `r' = r + 262144 · i` runs over the
  rows of tile `i` (the window's block at point `i` is rows `262144·i … 262144·i + 262143` of the array, all four
  columns). So the total after the last point is `Σ_i 2 · Σ_r rowTerm (r + 262144·i)`, and since every `rowTerm`
  is a sum of absolute values — non-negative — the factor enters each tile's sum and the 32 tiles of 262144 rows
  are all 8388608 rows: `Σ_b 2 · rowTerm b`, the reference's numerator. Both programs then divide by the same word.
-/
import proofs.«168216_j74294344286531_1_alg».proof.Proof.KernelValue
import proofs.«168216_j74294344286531_1_alg».proof.Proof.KernelStep
import proofs.«168216_j74294344286531_1_alg».proof.Proof.RefValue

noncomputable section

open Idealize.ShloMosaic Idealize.ShloMosaic.TcCoe Idealize.SL.Sem Idealize.ShloMosaic.ValueIdx

namespace Cert.KernelIdeal.Acc

open Cert.KernelIdeal Cert.KernelIdeal.Gen
open Cert.ReferenceIdeal.RefValue (rowTerm imag)

variable (m : (ℓ : Loc nD τ sig) → Buf (Elt Ideal) ℓ)

/-- The two argument arrays on core `c`. -/
abbrev predArr (c : Dev nD) : FVec Ideal S8388608x4 .f32 := m ((c : Thread nD τ).loc main_arg0)
abbrev trueArr (c : Dev nD) : FVec Ideal S8388608x4 .f32 := m ((c : Thread nD τ).loc main_arg1)

/-- Both inputs' windows move down one tile per point and never sideways. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row `r` of the tile point `t` reads is row `r + 262144 · t` of `pred`; -/
theorem predTile_apply (c : Dev nD) (t : Fin cfg0.N) (r : Fin 262144) (j : Fin 4) (b : Fin 8388608)
    (hb : b.val = r.val + 262144 * t.val) :
    predTile m c t (ix2 r j) = predArr m c (ix2 b j) := by
  have hi := idx_facts t
  show iblk m c 0 t (ix2 r j) = _
  unfold iblk
  rw [View.read_apply]
  refine (congrFun (V_main_arg0 m c) _).trans (congrArg (predArr m c) (funext fun a => Fin.ext ?_))
  match a with
  | ⟨0, _⟩ => show win0_0.index t 0 * 262144 + 1 * r.val = b.val; rw [hi.1, hb]; omega
  | ⟨1, _⟩ => show win0_0.index t 1 * 4 + 1 * j.val = j.val; rw [hi.2.1]; omega

/-- and of `true`. -/
theorem trueTile_apply (c : Dev nD) (t : Fin cfg0.N) (r : Fin 262144) (j : Fin 4) (b : Fin 8388608)
    (hb : b.val = r.val + 262144 * t.val) :
    trueTile m c t (ix2 r j) = trueArr m c (ix2 b j) := by
  have hi := idx_facts t
  show iblk m c 1 t (ix2 r j) = _
  unfold iblk
  rw [View.read_apply]
  refine (congrFun (V_main_arg1 m c) _).trans (congrArg (trueArr m c) (funext fun a => Fin.ext ?_))
  match a with
  | ⟨0, _⟩ => show win0_1.index t 0 * 262144 + 1 * r.val = b.val; rw [hi.2.2.1, hb]; omega
  | ⟨1, _⟩ => show win0_1.index t 1 * 4 + 1 * j.val = j.val; rw [hi.2.2.2]; omega

/-- A row's term, the row numbered among `32 · 262144`. -/
def rowG (c : Dev nD) (b : Fin (32 * 262144)) : EReal := rowTerm (predArr m c) (trueArr m c) (Fin.cast (by norm_num) b)

theorem rowG_nonneg (c : Dev nD) (b : Fin (32 * 262144)) : 0 ≤ rowG m c b := by
  unfold rowG rowTerm
  exact Finset.sum_nonneg fun _ _ => Qme.eabs_nonneg _

/-- Point `i`'s tile term is the sum of its rows' terms. -/
theorem tileTerm_eq (c : Dev nD) (i : Fin 32) (h : i.val < cfg0.N) :
    tileTerm (predTile m c ⟨i.val, h⟩) (trueTile m c ⟨i.val, h⟩) = ∑ r : Fin 262144, rowG m c (Qme.rowOf i r) := by
  unfold tileTerm
  refine Finset.sum_congr rfl fun r _ => ?_
  unfold rowG rowTerm
  refine Finset.sum_congr rfl fun j _ => ?_
  rw [predTile_apply m c ⟨i.val, h⟩ r ⟨j.val + 1, by omega⟩ (Fin.cast (by norm_num) (Qme.rowOf i r)) (Qme.rowOf_val i r),
    trueTile_apply m c ⟨i.val, h⟩ r ⟨j.val + 1, by omega⟩ (Fin.cast (by norm_num) (Qme.rowOf i r)) (Qme.rowOf_val i r)]

/-- Point `i`'s contribution to the total (nothing past the grid). -/
def contrib (c : Dev nD) (i : ℕ) : EReal :=
  if h : i < cfg0.N then two * tileTerm (predTile m c ⟨i, h⟩) (trueTile m c ⟨i, h⟩) else 0

/-- The running total after point `n` is the contributions of points `0 … n` added up. -/
theorem chain_apply (c : Dev nD) : ∀ (n : ℕ) (h : n < cfg0.N), chain m c n h (ix2 0 0) = ∑ i ∈ Finset.range (n + 1), contrib m c i
  | 0, h => by
    rw [Finset.sum_range_one]
    show k0_pay2 (F := Ideal) (predTile m c ⟨0, h⟩) (trueTile m c ⟨0, h⟩) (k0_pay1 (F := Ideal)) (ix2 0 0) = _
    rw [step_apply, zero_apply, zero_add]
    unfold contrib
    rw [dif_pos h]
  | n + 1, h => by
    rw [Finset.sum_range_succ, ← chain_apply c n (Nat.lt_of_succ_lt h)]
    show k0_pay2 (F := Ideal) (predTile m c ⟨n + 1, h⟩) (trueTile m c ⟨n + 1, h⟩) (chain m c n _) (ix2 0 0) = _
    rw [step_apply]
    unfold contrib
    rw [dif_pos h]

/-- The total after the last point is the reference's numerator. -/
theorem total_apply (c : Dev nD) :
    total m c (ix2 0 0) = ∑ b : Fin 8388608, two * rowTerm (predArr m c) (trueArr m c) b := by
  have hN : cfg0.N = 32 := N_0
  show chain m c 31 _ (ix2 0 0) = _
  rw [chain_apply m c 31, Finset.sum_range (fun i => contrib m c i)]
  have e : ∀ i : Fin 32, contrib m c i.val = two * ∑ r : Fin 262144, rowG m c (Qme.rowOf i r) := fun i => by
    have h : i.val < cfg0.N := by rw [hN]; exact i.isLt
    unfold contrib
    rw [dif_pos h, tileTerm_eq m c i h]
  simp only [e]
  rw [Qme.sum_tiles two 32 262144 (rowG m c) (rowG_nonneg m c)]
  exact Fintype.sum_equiv (finCongr (by norm_num)) _ _ fun b => rfl

/-- So the kernel's result is the reference's, as functions of the same two arrays. -/
theorem result_eq (c : Dev nD) :
    tailOf (total m c) = Cert.ReferenceIdeal.RefRun.refTerm (F := Ideal) (predArr m c) (trueArr m c) := by
  rw [Cert.ReferenceIdeal.RefValue.refTerm_eq]
  funext i
  unfold tailOf
  show Ideal.div (shapeCast S_ (total m c) shapeCasts_S1x1_S_ i) (Ideal.ofBits .f32 0x4B000000#32) = _
  rw [shapeCast_apply _ _ i (ix2 0 0) (by rw [Shape.rowMajor_val_two]; rfl), total_apply]

end Cert.KernelIdeal.Acc

end
-- ==== Proof.lean ====
/-
  The quaternion multiplicative-error loss: `mean_b ( 2 · Σ_{j=1,2,3} |pred[b,j] · true[b,j]| )` over 8388608 rows.

  The kernel walks the rows in 32 tiles of 262144, keeps a running total in a one-element scratch — reset at the
  first tile, increased by twice the tile's sum of `|pred · true|` over the imaginary columns at every tile —,
  writes the total out after the last tile and divides by the number of rows on the host. The reference conjugates
  `true` (a factor `-1` on the imaginary columns), multiplies, takes absolute values, sums each row, doubles, and
  takes the mean.

  At the exact values the two agree on every extended-real input: the `-1` disappears under the absolute value,
  the doubling of a tile's sum is the sum of the doubled rows because every term is non-negative, and the tiles'
  rows are all the rows. Neither finiteness nor any other property of the inputs is used.

    frames       the kernel's two frames are the generated ones; the reference's is its run with the result dropped;
    preserves    the idealization rewrote nothing;
    algebraic    the kernel's run ends at `tailOf total`, the reference's at `refTerm` of the same two arrays, and
                 `Acc.result_eq` says these are one value.
-/
import proofs.«168216_j74294344286531_1_alg».proof.Defs
import proofs.«168216_j74294344286531_1_alg».proof.Proof.Gen.Kernel
import proofs.«168216_j74294344286531_1_alg».proof.Proof.Gen.Kernel.Frame
import proofs.«168216_j74294344286531_1_alg».proof.Proof.Gen.KernelIdeal
import proofs.«168216_j74294344286531_1_alg».proof.Proof.Gen.KernelIdeal.Frame
import proofs.«168216_j74294344286531_1_alg».proof.Proof.Gen.ReferenceIdeal
import proofs.«168216_j74294344286531_1_alg».proof.Proof.Gen.Pre_finite_inputs
import proofs.«168216_j74294344286531_1_alg».proof.Proof.RefRun
import proofs.«168216_j74294344286531_1_alg».proof.Proof.KernelValue
import proofs.«168216_j74294344286531_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end; the kernel's result is `tailOf total`, the reference's `refTerm` of arguments that agree:
    one value. -/
theorem algebraic : Cert.algebraic_KernelIdeal_ReferenceIdeal := by
  intro m ρ m' ρ' _ hagree
  refine ⟨_, Cert.KernelIdeal.Acc.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact (Cert.KernelIdeal.Acc.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
